-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2 : Shape := ⟨3, ![4, 2048, 2]⟩
abbrev S4x2048x128 : Shape := ⟨3, ![4, 2048, 128]⟩
abbrev S128x128x2 : Shape := ⟨3, ![128, 128, 2]⟩
abbrev S2 : Shape := ⟨1, ![2]⟩
abbrev S_ : Shape := ⟨0, ![]⟩

class Facts : Prop where
  bcast_S_S4x2048x2 : S_.BroadcastsInDim S4x2048x2 (![] : Fin 0 → Fin S4x2048x2.rank)
  reducesTo_S4x2048x2_S_d0_1_2 : S4x2048x2.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S128x128x2 : S_.BroadcastsInDim S128x128x2 (![] : Fin 0 → Fin S128x128x2.rank)
  reducesTo_S128x128x2_S_d0_1_2 : S128x128x2.ReducesTo [0, 1, 2] S_
  bcast_S_S2 : S_.BroadcastsInDim S2 (![] : Fin 0 → Fin S2.rank)
  reducesTo_S2_S_d0 : S2.ReducesTo [0] S_

variable [Facts]

def fn_part1 {F : FTy → Type} [FloatOps F] (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  main_v18

def fn {F : FTy → Type} [FloatOps F] (main_arg0 : FVec F S4x2048x2 .f32) (main_arg1 : FVec F S4x2048x128 .f32) (main_arg2 : FVec F S128x128x2 .f32) (main_arg3 : FVec F S2 .f32) : IVec S_ 1 :=
  let main_v0 : FVec F S4x2048x2 .f32 := Host.absf main_arg0
  let main_cst : FVec F S_ .f32 := constant S_ .f32 0x7F800000#32
  let main_v1 : FVec F S4x2048x2 .f32 := broadcastInDim S4x2048x2 ![] bcast_S_S4x2048x2 main_cst
  let main_v2 : IVec S4x2048x2 1 := cmpf .olt main_v0 main_v1
  let main_c : IVec S_ 1 := constantI S_ 1 1#1
  let main_v3 : IVec S_ 1 := (fun x v => Host.reduce IntOp.andi x v reducesTo_S4x2048x2_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S128x128x2 .f32 := Host.absf main_arg2
  let main_cst_2 : FVec F S_ .f32 := constant S_ .f32 0x7F800000#32
  let main_v10 : FVec F S128x128x2 .f32 := broadcastInDim S128x128x2 ![] bcast_S_S128x128x2 main_cst_2
  let main_v11 : IVec S128x128x2 1 := cmpf .olt main_v9 main_v10
  let main_c_3 : IVec S_ 1 := constantI S_ 1 1#1
  let main_v12 : IVec S_ 1 := (fun x v => Host.reduce IntOp.andi x v reducesTo_S128x128x2_S_d0_1_2 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_v13 main_v16
-- ==== Kernel.lean ====
abbrev S4x2048x2 : Shape := ⟨3, ![4, 2048, 2]⟩
abbrev S4x2048x128 : Shape := ⟨3, ![4, 2048, 128]⟩
abbrev S128x128x2 : Shape := ⟨3, ![128, 128, 2]⟩
abbrev S2 : Shape := ⟨1, ![2]⟩
abbrev S_ : Shape := ⟨0, ![]⟩
abbrev S1 : Shape := ⟨1, ![1]⟩
abbrev S1x1 : Shape := ⟨2, ![1, 1]⟩
abbrev S16384x2 : Shape := ⟨2, ![16384, 2]⟩
abbrev S16384x1 : Shape := ⟨2, ![16384, 1]⟩
abbrev S4x2048x1 : Shape := ⟨3, ![4, 2048, 1]⟩
abbrev S4x1x2048 : Shape := ⟨3, ![4, 1, 2048]⟩
abbrev S4x16384x128 : Shape := ⟨3, ![4, 16384, 128]⟩
abbrev S512x1 : Shape := ⟨2, ![512, 1]⟩
abbrev S1x1x2048 : Shape := ⟨3, ![1, 1, 2048]⟩
abbrev S1x2048x128 : Shape := ⟨3, ![1, 2048, 128]⟩
abbrev S1x512x128 : Shape := ⟨3, ![1, 512, 128]⟩
abbrev S1x2048 : Shape := ⟨2, ![1, 2048]⟩
abbrev S512x2048 : Shape := ⟨2, ![512, 2048]⟩
abbrev S2048x128 : Shape := ⟨2, ![2048, 128]⟩
abbrev S512x128 : Shape := ⟨2, ![512, 128]⟩
abbrev S4x128x128x128 : Shape := ⟨4, ![4, 128, 128, 128]⟩
abbrev S1x128x128x2 : Shape := ⟨4, ![1, 128, 128, 2]⟩
abbrev S4x128x128x2 : Shape := ⟨4, ![4, 128, 128, 2]⟩

abbrev nBuf : Space → Nat
  | .hbm => 41
  | .vmem => 14
  | .smem => 0
  | _ => 0

abbrev bufTy : (tb : Table) → Fin (tcTables nBuf tb) → BufTy
  | .hbm, ⟨0, _⟩ => ⟨S4x2048x2, .f32⟩
  | .hbm, ⟨1, _⟩ => ⟨S4x2048x128, .f32⟩
  | .hbm, ⟨2, _⟩ => ⟨S128x128x2, .f32⟩
  | .hbm, ⟨3, _⟩ => ⟨S2, .f32⟩
  | .hbm, ⟨4, _⟩ => ⟨S_, .f32⟩
  | .hbm, ⟨5, _⟩ => ⟨S2, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .i1⟩
  | .hbm, ⟨10, _⟩ => ⟨S2, .f32⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S_, .f32⟩
  | .hbm, ⟨19, _⟩ => ⟨S2, .f32⟩
  | .hbm, ⟨20, _⟩ => ⟨S2, .f32⟩
  | .hbm, ⟨21, _⟩ => ⟨S2, .f32⟩
  | .hbm, ⟨22, _⟩ => ⟨S_, .f32⟩
  | .hbm, ⟨23, _⟩ => ⟨S2, .f32⟩
  | .hbm, ⟨24, _⟩ => ⟨S2, .f32⟩
  | .hbm, ⟨25, _⟩ => ⟨S1, .f32⟩
  | .hbm, ⟨26, _⟩ => ⟨S1x1, .f32⟩
  | .hbm, ⟨27, _⟩ => ⟨S1, .f32⟩
  | .hbm, ⟨28, _⟩ => ⟨S1x1, .f32⟩
  | .hbm, ⟨29, _⟩ => ⟨S16384x2, .f32⟩
  | .hbm, ⟨30, _⟩ => ⟨S16384x1, .f32⟩
  | .hbm, ⟨31, _⟩ => ⟨S16384x1, .f32⟩
  | .hbm, ⟨32, _⟩ => ⟨S4x2048x1, .f32⟩
  | .hbm, ⟨33, _⟩ => ⟨S4x1x2048, .f32⟩
  | .hbm, ⟨34, _⟩ => ⟨S4x2048x1, .f32⟩
  | .hbm, ⟨35, _⟩ => ⟨S4x1x2048, .f32⟩
  | .hbm, ⟨36, _⟩ => ⟨S4x2048x128, .bf16⟩
  | .hbm, ⟨37, _⟩ => ⟨S4x16384x128, .f32⟩
  | .hbm, ⟨38, _⟩ => ⟨S4x128x128x128, .f32⟩
  | .hbm, ⟨39, _⟩ => ⟨S1x128x128x2, .f32⟩
  | .hbm, ⟨40, _⟩ => ⟨S4x128x128x2, .f32⟩
  | .local _ .vmem, ⟨0, _⟩ => ⟨S1x1, .f32⟩
  | .local _ .vmem, ⟨1, _⟩ => ⟨S1x1, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048x128, .bf16⟩
  | .local _ .vmem, ⟨11, _⟩ => ⟨S1x2048x128, .bf16⟩
  | .local _ .vmem, ⟨12, _⟩ => ⟨S1x512x128, .f32⟩
  | .local _ .vmem, ⟨13, _⟩ => ⟨S1x512x128, .f32⟩
  | _, _ => ⟨S4x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S2 : S_.BroadcastsInDim S2 (![] : Fin 0 → Fin S2.rank)
  slices_S2_S1_0 : S2.Slices ![0] S1
  shapeCasts_S1_S1x1 : S1.ShapeCasts S1x1
  slices_S2_S1_1 : S2.Slices ![1] S1
  shapeCasts_S128x128x2_S16384x2 : S128x128x2.ShapeCasts S16384x2
  slices_S16384x2_S16384x1_0_0 : S16384x2.Slices ![0, 0] S16384x1
  slices_S16384x2_S16384x1_0_1 : S16384x2.Slices ![0, 1] S16384x1
  slices_S4x2048x2_S4x2048x1_0_0_0 : S4x2048x2.Slices ![0, 0, 0] S4x2048x1
  transposes_S4x2048x1_S4x1x2048_0_2_1 : S4x2048x1.Transposes [0, 2, 1] S4x1x2048
  slices_S4x2048x2_S4x2048x1_0_0_1 : S4x2048x2.Slices ![0, 0, 1] S4x2048x1
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S512x1_S512x2048 : S512x1.Broadcasts S512x2048
  broadcasts_S1x2048_S512x2048 : S1x2048.Broadcasts S512x2048
  broadcasts_S1x1_S512x2048 : S1x1.Broadcasts S512x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  shapeCasts_S4x16384x128_S4x128x128x128 : S4x16384x128.ShapeCasts S4x128x128x128
  bcast_S128x128x2_S1x128x128x2_1_2_3 : S128x128x2.BroadcastsInDim S1x128x128x2 (![1, 2, 3] : Fin 3 → Fin S1x128x128x2.rank)
  bcast_S1x128x128x2_S4x128x128x2_0_1_2_3 : S1x128x128x2.BroadcastsInDim S4x128x128x2 (![0, 1, 2, 3] : Fin 4 → Fin S4x128x128x2.rank)
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S4x1x2048.size a
  hwx0_4 : ∀ i : grid0.Coords, EltTy.bits .f32 = 32 ∨ (Rect.block (s := S4x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S4x1x2048.size a
  hwx0_5 : ∀ i : grid0.Coords, EltTy.bits .f32 = 32 ∨ (Rect.block (s := S4x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x128.size a ≤ S4x2048x128.size a
  hwx0_6 : ∀ i : grid0.Coords, EltTy.bits .bf16 = 32 ∨ (Rect.block (s := S4x2048x128) S1x2048x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x128.size a ≤ S4x16384x128.size a
  hwx0_7 : ∀ i : grid0.Coords, EltTy.bits .f32 = 32 ∨ (Rect.block (s := S4x16384x128) S1x512x128.size (cc0_transform_7 i) (hinb0_7 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v7) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x2 : Shape := ⟨3, ![4, 2048, 2]⟩
abbrev S4x2048x128 : Shape := ⟨3, ![4, 2048, 128]⟩
abbrev S128x128x2 : Shape := ⟨3, ![128, 128, 2]⟩
abbrev S2 : Shape := ⟨1, ![2]⟩
abbrev S_ : Shape := ⟨0, ![]⟩
abbrev S16384x2 : Shape := ⟨2, ![16384, 2]⟩
abbrev S1x16384x1x2 : Shape := ⟨4, ![1, 16384, 1, 2]⟩
abbrev S4x1x2048x2 : Shape := ⟨4, ![4, 1, 2048, 2]⟩
abbrev S4x16384x2048x2 : Shape := ⟨4, ![4, 16384, 2048, 2]⟩
abbrev S1x1x1x2 : Shape := ⟨4, ![1, 1, 1, 2]⟩
abbrev S4x16384x2048 : Shape := ⟨3, ![4, 16384, 2048]⟩
abbrev S4x16384x128 : Shape := ⟨3, ![4, 16384, 128]⟩
abbrev S4x128x128x128 : Shape := ⟨4, ![4, 128, 128, 128]⟩
abbrev S1x128x128x2 : Shape := ⟨4, ![1, 128, 128, 2]⟩
abbrev S4x128x128x2 : Shape := ⟨4, ![4, 128, 128, 2]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x2, .f32⟩
  | .hbm, ⟨1, _⟩ => ⟨S4x2048x128, .f32⟩
  | .hbm, ⟨2, _⟩ => ⟨S128x128x2, .f32⟩
  | .hbm, ⟨3, _⟩ => ⟨S2, .f32⟩
  | .hbm, ⟨4, _⟩ => ⟨S_, .f32⟩
  | .hbm, ⟨5, _⟩ => ⟨S2, .f32⟩
  | .hbm, ⟨6, _⟩ => ⟨S2, .f32⟩
  | .hbm, ⟨7, _⟩ => ⟨S2, .f32⟩
  | .hbm, ⟨8, _⟩ => ⟨S2, .f32⟩
  | .hbm, ⟨9, _⟩ => ⟨S2, .i1⟩
  | .hbm, ⟨10, _⟩ => ⟨S2, .f32⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S_, .f32⟩
  | .hbm, ⟨19, _⟩ => ⟨S2, .f32⟩
  | .hbm, ⟨20, _⟩ => ⟨S2, .f32⟩
  | .hbm, ⟨21, _⟩ => ⟨S16384x2, .f32⟩
  | .hbm, ⟨22, _⟩ => ⟨S1x16384x1x2, .f32⟩
  | .hbm, ⟨23, _⟩ => ⟨S4x1x2048x2, .f32⟩
  | .hbm, ⟨24, _⟩ => ⟨S4x16384x2048x2, .f32⟩
  | .hbm, ⟨25, _⟩ => ⟨S4x16384x2048x2, .f32⟩
  | .hbm, ⟨26, _⟩ => ⟨S4x16384x2048x2, .f32⟩
  | .hbm, ⟨27, _⟩ => ⟨S4x16384x2048x2, .f32⟩
  | .hbm, ⟨28, _⟩ => ⟨S2, .f32⟩
  | .hbm, ⟨29, _⟩ => ⟨S1x1x1x2, .f32⟩
  | .hbm, ⟨30, _⟩ => ⟨S4x16384x2048x2, .f32⟩
  | .hbm, ⟨31, _⟩ => ⟨S4x16384x2048x2, .f32⟩
  | .hbm, ⟨32, _⟩ => ⟨S_, .f32⟩
  | .hbm, ⟨33, _⟩ => ⟨S4x16384x2048, .f32⟩
  | .hbm, ⟨34, _⟩ => ⟨S_, .f32⟩
  | .hbm, ⟨35, _⟩ => ⟨S4x16384x2048, .f32⟩
  | .hbm, ⟨36, _⟩ => ⟨S4x16384x2048, .f32⟩
  | .hbm, ⟨37, _⟩ => ⟨S4x16384x2048, .f32⟩
  | .hbm, ⟨38, _⟩ => ⟨S4x16384x128, .f32⟩
  | .hbm, ⟨39, _⟩ => ⟨S4x128x128x128, .f32⟩
  | .hbm, ⟨40, _⟩ => ⟨S1x128x128x2, .f32⟩
  | .hbm, ⟨41, _⟩ => ⟨S4x128x128x2, .f32⟩
  | _, _ => ⟨S4x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]

class Facts₀ : Prop where
  bcast_S_S2 : S_.BroadcastsInDim S2 (![] : Fin 0 → Fin S2.rank)
  shapeCasts_S128x128x2_S16384x2 : S128x128x2.ShapeCasts S16384x2
  bcast_S16384x2_S1x16384x1x2_1_3 : S16384x2.BroadcastsInDim S1x16384x1x2 (![1, 3] : Fin 2 → Fin S1x16384x1x2.rank)
  bcast_S4x2048x2_S4x1x2048x2_0_2_3 : S4x2048x2.BroadcastsInDim S4x1x2048x2 (![0, 2, 3] : Fin 3 → Fin S4x1x2048x2.rank)
  bcast_S1x16384x1x2_S4x16384x2048x2_0_1_2_3 : S1x16384x1x2.BroadcastsInDim S4x16384x2048x2 (![0, 1, 2, 3] : Fin 4 → Fin S4x16384x2048x2.rank)
  bcast_S4x1x2048x2_S4x16384x2048x2_0_1_2_3 : S4x1x2048x2.BroadcastsInDim S4x16384x2048x2 (![0, 1, 2, 3] : Fin 4 → Fin S4x16384x2048x2.rank)
  bcast_S2_S1x1x1x2_3 : S2.BroadcastsInDim S1x1x1x2 (![3] : Fin 1 → Fin S1x1x1x2.rank)
  bcast_S1x1x1x2_S4x16384x2048x2_0_1_2_3 : S1x1x1x2.BroadcastsInDim S4x16384x2048x2 (![0, 1, 2, 3] : Fin 4 → Fin S4x16384x2048x2.rank)
  reducesTo_S4x16384x2048x2_S4x16384x2048_d3 : S4x16384x2048x2.ReducesTo [3] S4x16384x2048
  h_S_ : 0 < S_.numel
  bcast_S_S4x16384x2048 : S_.BroadcastsInDim S4x16384x2048 (![] : Fin 0 → Fin S4x16384x2048.rank)
  shapeCasts_S4x16384x128_S4x128x128x128 : S4x16384x128.ShapeCasts S4x128x128x128
  bcast_S128x128x2_S1x128x128x2_1_2_3 : S128x128x2.BroadcastsInDim S1x128x128x2 (![1, 2, 3] : Fin 3 → Fin S1x128x128x2.rank)
  bcast_S1x128x128x2_S4x128x128x2_0_1_2_3 : S1x128x128x2.BroadcastsInDim S4x128x128x2 (![0, 1, 2, 3] : Fin 4 → Fin S4x128x128x2.rank)
  dot_S4x16384x2048_S4x2048x128_S4x16384x128_2_1_1_2_0_0_wf : DotDims.WF S4x16384x2048 S4x2048x128 S4x16384x128 [2] [1] [1] [2] [0] [0]

variable [Facts₀]

def dot_S4x16384x2048_S4x2048x128_S4x16384x128_2_1_1_2_0_0 : DotDims S4x16384x2048 S4x2048x128 S4x16384x128 where
  lhsContracting := [2]
  rhsContracting := [1]
  lhsNonContracting := [1]
  rhsNonContracting := [2]
  lhsBatch := [0]
  rhsBatch := [0]
  wf := dot_S4x16384x2048_S4x2048x128_S4x16384x128_2_1_1_2_0_0_wf

class Facts : Prop extends Facts₀ where

variable [Facts]
-- ==== Proof.Spec.lean ====
/-
  The mathematics both programs compute, stated once over the extended reals.

  A point cloud x[b, n, ·] in the plane carries values z[b, n, ·]; a fixed lattice of points
  grid[p, q, ·] receives, at every lattice point, the sum over the cloud of the values weighted by a
  Gaussian of the coordinate-wise scaled distance:

      out[b, p, q, d] = ∑ n, exp( (g₀ - x₀)² · c₀ + (g₁ - x₁)² · c₁ ) · z[b, n, d],
      c_k = -½ / l_k²,   l_k = ε + softplus(lp_k).

  The other program writes the same exponent as -½ · (0 + ((g₀ - x₀)² / l₀² + (g₁ - x₁)² / l₁²)).
  The first result is the lattice itself, repeated along the batch axis.
-/
import Idealize.ShloMosaic.PureOps.Ideal
import Idealize.ShloMosaic.PureOps.Ideal.Laws
import Idealize.ShloMosaic.Lib.ValueIdx

noncomputable section

namespace Cert.SetConv

open Idealize.ShloMosaic Idealize.ShloMosaic.ValueIdx

/-- The three float words the programs spell: zero, the lengthscale floor ε, and -½. -/
abbrev zeroW : EReal := Ideal.ofBits .f32 0x00000000#32
abbrev epsW : EReal := Ideal.ofBits .f32 0x3727C5AC#32
abbrev mhalfW : EReal := Ideal.ofBits .f32 0xBF000000#32

/-- softplus of one element, operation by operation as both programs spell it: the guard `r - 0 ≠ r - 0`
    selects `r + 0`, otherwise `max r 0 + log1p (exp (-|r - 0|))`. -/
def softplus (r : EReal) : EReal :=
  Scalar.select (Ideal.cmp .une (r - zeroW) (r - zeroW)) (r + zeroW)
    (max r zeroW + Ideal.log1p (Ideal.exp (-(max (r - zeroW) (-(r - zeroW))))))

/-- The lengthscale l = ε + softplus(lp), its square, and the exponent's coefficient -½ / l². -/
def ls (r : EReal) : EReal := epsW + softplus r
def lsq (r : EReal) : EReal := ls r * ls r
def coef (r : EReal) : EReal := Ideal.div mhalfW (lsq r)

/-- The Gaussian weight with the coefficients folded in front: exp((g₀-x₀)²·c₀ + (g₁-x₁)²·c₁). -/
def wMul (g0 g1 x0 x1 c0 c1 : EReal) : EReal :=
  Ideal.exp ((g0 - x0) * (g0 - x0) * c0 + (g1 - x1) * (g1 - x1) * c1)

/-- The same weight as a quotient summed over the two coordinates and scaled by -½ afterwards. -/
def wDiv (g0 g1 x0 x1 L0 L1 : EReal) : EReal :=
  Ideal.exp (mhalfW * (zeroW + (Ideal.div ((g0 - x0) * (g0 - x0)) L0 + Ideal.div ((g1 - x1) * (g1 - x1)) L1)))

abbrev SX : Shape := ⟨3, ![4, 2048, 2]⟩
abbrev SZ : Shape := ⟨3, ![4, 2048, 128]⟩
abbrev SG : Shape := ⟨3, ![128, 128, 2]⟩
abbrev SL : Shape := ⟨1, ![2]⟩
abbrev SFlat : Shape := ⟨3, ![4, 16384, 128]⟩
abbrev SOut : Shape := ⟨4, ![4, 128, 128, 128]⟩
abbrev SRep : Shape := ⟨4, ![4, 128, 128, 2]⟩

/-- The weight of cloud point `n` of batch `b` at lattice point `(p, q)`. -/
def wgt (x : FVec Ideal SX .f32) (grid : FVec Ideal SG .f32) (lp : FVec Ideal SL .f32)
    (b : Fin 4) (p q : Fin 128) (n : Fin 2048) : EReal :=
  wMul (grid (ix3 p q (0 : Fin 2))) (grid (ix3 p q (1 : Fin 2))) (x (ix3 b n (0 : Fin 2))) (x (ix3 b n (1 : Fin 2)))
    (coef (lp (ix1 (0 : Fin 2)))) (coef (lp (ix1 (1 : Fin 2))))

/-- Row `r` of the flattened lattice is lattice point `(r / 128, r % 128)`. -/
abbrev rowP (r : Fin 16384) : Fin 128 := ⟨r.val / 128, by have := r.isLt; omega⟩
abbrev rowQ (r : Fin 16384) : Fin 128 := ⟨r.val % 128, by omega⟩

/-- The weighted sums with the lattice flattened to 16384 rows (what the kernel region writes). -/
def outFlat (x : FVec Ideal SX .f32) (z : FVec Ideal SZ .f32) (grid : FVec Ideal SG .f32) (lp : FVec Ideal SL .f32) :
    FVec Ideal SFlat .f32 :=
  fun j => ∑ n : Fin 2048, wgt x grid lp (j 0) (rowP (j 1)) (rowQ (j 1)) n * z (ix3 (j 0) n (j 2))

/-- The weighted sums on the lattice: the second result of both programs. -/
def out (x : FVec Ideal SX .f32) (z : FVec Ideal SZ .f32) (grid : FVec Ideal SG .f32) (lp : FVec Ideal SL .f32) :
    FVec Ideal SOut .f32 :=
  fun i => ∑ n : Fin 2048, wgt x grid lp (i 0) (i 1) (i 2) n * z (ix3 (i 0) n (i 3))

/-- The lattice repeated along the batch axis: the first result of both programs. -/
def rep (grid : FVec Ideal SG .f32) : FVec Ideal SRep .f32 :=
  fun i => grid (ix3 (i 1) (i 2) (i 3))

end Cert.SetConv

end
-- ==== Proof.Consts.lean ====
/-
  The float words the programs and the precondition spell, as the extended reals they denote: +∞, the
  lengthscale floor ε (a positive real) and -½ (a real). Stated once, so that no other module opens a word.
-/
import Idealize.ShloMosaic.PureOps.Ideal
import Idealize.ShloMosaic.PureOps.Ideal.Laws

noncomputable section

namespace Cert.SetConv.Consts

open Idealize.ShloMosaic

/-- The word `0x7F800000` denotes +∞. -/
theorem ofBits_pos_inf : Ideal.ofBits .f32 0x7F800000#32 = ⊤ := by simp [Ideal.ofBits, Ideal.ieee]

/-- The floor word ε denotes a positive real (10995116 · 2⁻⁴⁰). -/
theorem ofBits_eps : ∃ e : ℝ, 0 < e ∧ Ideal.ofBits .f32 0x3727C5AC#32 = (e : EReal) := by
  refine ⟨10995116 * (2 ^ 40)⁻¹, by positivity, ?_⟩
  simp [Ideal.ofBits, Ideal.ieee, -EReal.coe_mul]

/-- The word -½ denotes a real. -/
theorem ofBits_mhalf : ∃ h : ℝ, Ideal.ofBits .f32 0xBF000000#32 = (h : EReal) := by
  refine ⟨-(8388608 * (2 ^ 24)⁻¹), ?_⟩
  simp [Ideal.ofBits, Ideal.ieee, -EReal.coe_mul]

end Cert.SetConv.Consts

end
-- ==== Proof.Scalars.lean ====
/-
  Scalar facts on the extended reals: the lengthscale of a finite parameter is a positive real, and the two
  spellings of the Gaussian weight agree on finite coordinates.
-/
import proofs.«179867_j86251533238887_1_alg».proof.Proof.Spec
import proofs.«179867_j86251533238887_1_alg».proof.Proof.Consts

noncomputable section

namespace Cert.SetConv

open Idealize.ShloMosaic

/-- The zero word denotes 0. -/
private theorem zeroW_eq : zeroW = 0 := Ideal.ofBits_zero_f32

/-- The floor word ε denotes a positive real. -/
private theorem epsW_real : ∃ e : ℝ, 0 < e ∧ epsW = (e : EReal) := Consts.ofBits_eps

/-- The word -½ denotes a real. -/
private theorem mhalfW_real : ∃ h : ℝ, mhalfW = (h : EReal) := Consts.ofBits_mhalf

/-- The maximum of two reals, taken in the extended reals, is the real maximum. -/
private theorem coe_max' (a b : ℝ) : max (a : EReal) (b : EReal) = ((max a b : ℝ) : EReal) :=
  (EReal.coe_strictMono.monotone.map_max).symm

/-- softplus of a real r is the positive real max r 0 + log (1 + exp (-|r|)): the guard r ≠ r is false,
    max r 0 ≥ 0, and 1 + exp (-|r|) > 1 has a positive logarithm. -/
private theorem softplus_real (r : ℝ) : ∃ t : ℝ, 0 < t ∧ softplus (r : EReal) = (t : EReal) := by
  refine ⟨max r 0 + Real.log (1 + Real.exp (-(max r (-r)))), ?_, ?_⟩
  · have h1 : 0 < Real.log (1 + Real.exp (-(max r (-r)))) :=
      Real.log_pos (by linarith [Real.exp_pos (-(max r (-r)))])
    have h2 : 0 ≤ max r 0 := le_max_right _ _
    linarith
  · unfold softplus
    rw [zeroW_eq, sub_zero]
    have hg : Ideal.cmp .une (r : EReal) (r : EReal) = 0#1 := by simp [Ideal.cmp]
    rw [hg, ValueIdx.select_zero]
    have hpos : ¬ (1 + Real.exp (-(max r (-r))) ≤ 0) := by
      have := Real.exp_pos (-(max r (-r)))
      linarith
    rw [← EReal.coe_zero, coe_max', ← EReal.coe_neg, coe_max', ← EReal.coe_neg, Ideal.exp_coe, Ideal.log1p,
      ← EReal.coe_one, ← EReal.coe_add, Ideal.log_coe, if_neg hpos, ← EReal.coe_add]

/-- For a finite parameter the lengthscale ε + softplus(r) is a positive real. -/
theorem ls_real (r : ℝ) : ∃ s : ℝ, 0 < s ∧ ls (r : EReal) = (s : EReal) := by
  obtain ⟨e, he, hE⟩ := epsW_real
  obtain ⟨t, ht, hT⟩ := softplus_real r
  refine ⟨e + t, by linarith, ?_⟩
  rw [ls, hE, hT, ← EReal.coe_add]

/-- On finite coordinates and finite parameters the quotient form of the weight is the product form:
    d₀²·(h/L₀) + d₁²·(h/L₁) = h·(0 + (d₀²/L₀ + d₁²/L₁)) for real d, h and nonzero real L. -/
theorem wDiv_eq_wMul (g0 g1 x0 x1 p0 p1 : ℝ) :
    wDiv (g0 : EReal) (g1 : EReal) (x0 : EReal) (x1 : EReal) (lsq (p0 : EReal)) (lsq (p1 : EReal))
      = wMul (g0 : EReal) (g1 : EReal) (x0 : EReal) (x1 : EReal) (coef (p0 : EReal)) (coef (p1 : EReal)) := by
  obtain ⟨h, hH⟩ := mhalfW_real
  obtain ⟨s0, hs0, hS0⟩ := ls_real p0
  obtain ⟨s1, hs1, hS1⟩ := ls_real p1
  have hL0 : s0 * s0 ≠ 0 := (mul_pos hs0 hs0).ne'
  have hL1 : s1 * s1 ≠ 0 := (mul_pos hs1 hs1).ne'
  have e0 : lsq (p0 : EReal) = ((s0 * s0 : ℝ) : EReal) := by rw [lsq, hS0, ← EReal.coe_mul]
  have e1 : lsq (p1 : EReal) = ((s1 * s1 : ℝ) : EReal) := by rw [lsq, hS1, ← EReal.coe_mul]
  unfold wDiv wMul coef
  rw [e0, e1, hH, zeroW_eq, Ideal.div_coe hL0, Ideal.div_coe hL1, Ideal.div_coe hL0, Ideal.div_coe hL1]
  congr 1
  rw [← EReal.coe_zero]
  simp only [← EReal.coe_sub, ← EReal.coe_mul, ← EReal.coe_add]
  congr 1
  ring

end Cert.SetConv

end
-- ==== Proof.Finite.lean ====
/-
  From the precondition (every float input's absolute value is below +∞) to: every entry of the cloud, of the
  lattice and of the lengthscale parameter is a real number.
-/
import proofs.«179867_j86251533238887_1_alg».proof.Pre_finite_inputs
import proofs.«179867_j86251533238887_1_alg».proof.Proof.Gen.Pre_finite_inputs
import proofs.«179867_j86251533238887_1_alg».proof.Proof.Consts
import Idealize.ShloMosaic.PureOps.Ideal
import Idealize.ShloMosaic.PureOps.Ideal.Laws
import Idealize.ShloMosaic.Lib.ValueIdx
import Idealize.ShloMosaic.Lib.ReduceAll

noncomputable section

namespace Cert.SetConv

open Idealize.ShloMosaic Cert.Pre_finite_inputs

/-- The scalar shape has one index. -/
private instance subsingleton_scalar_idx : Subsingleton S_.Idx := ⟨fun _ _ => funext fun d => d.elim0⟩

/-- The word `0x7F800000` denotes +∞. -/
private theorem ofBits_pos_inf : Ideal.ofBits .f32 0x7F800000#32 = ⊤ := Consts.ofBits_pos_inf

/-- An extended real whose absolute value `max a (-a)` compares below +∞ is a real number: at `⊥` and at `⊤` the
    absolute value is `⊤`. -/
private theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- One input of the precondition: where the `all` of "absolute value below the broadcast +∞" is 1, every entry is real. -/
private theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1) (i : s.Idx) : ∃ r : ℝ, a i = (r : EReal) := by
  have hi := Host.reduce_andi_all _ _ hr hu ValueIdx.ix0 e i
  refine real_of_abs_lt_top (a i) ?_
  rw [← ofBits_pos_inf]
  exact hi

/-- Where the precondition's predicate is all ones, the cloud, the lattice and the parameter hold reals. -/
theorem real_of_pre (x : FVec Ideal S4x2048x2 .f32) (z : FVec Ideal S4x2048x128 .f32) (g : FVec Ideal S128x128x2 .f32)
    (lp : FVec Ideal S2 .f32) (h : Cert.Pre_finite_inputs.fn (F := Ideal) x z g lp = fun _ => 1#1) :
    (∀ i, ∃ r : ℝ, x i = (r : EReal)) ∧ (∀ i, ∃ r : ℝ, g i = (r : EReal)) ∧ (∀ i, ∃ r : ℝ, lp i = (r : EReal)) := by
  have h0 := congrFun h ValueIdx.ix0
  dsimp only [Cert.Pre_finite_inputs.fn, Cert.Pre_finite_inputs.fn_part1] at h0
  obtain ⟨h1, hlp⟩ := IntOp.andi_eq_one.1 h0
  obtain ⟨h2, hg⟩ := IntOp.andi_eq_one.1 h1
  obtain ⟨hx, _⟩ := IntOp.andi_eq_one.1 h2
  exact ⟨real_of_all x _ _ _ hx, real_of_all g _ _ _ hg, real_of_all lp _ _ _ hlp⟩

end Cert.SetConv

end
-- ==== Proof.RefValue.lean ====
/-
  The reference program's two results, read index by index, are the lattice repeated along the batch axis and
  the Gaussian-weighted sums of the specification.
-/
import proofs.«179867_j86251533238887_1_alg».proof.Proof.Spec
import proofs.«179867_j86251533238887_1_alg».proof.Proof.Scalars
import proofs.«179867_j86251533238887_1_alg».proof.Proof.Gen.ReferenceIdeal.Read

noncomputable section

namespace Cert.SetConv

open Idealize.ShloMosaic Idealize.ShloMosaic.ValueIdx Cert.ReferenceIdeal Cert.ReferenceIdeal.Read

/-- The reference's first result is the lattice at (p, q, k) whatever the batch index. -/
theorem ref_rep (g : FVec Ideal S128x128x2 .f32) : val_main_v21 (F := Ideal) g = rep g := by
  funext i
  obtain ⟨b, p, q, k, rfl⟩ : ∃ (b : Fin 4) (p q : Fin 128) (k : Fin 2), i = ix4 b p q k :=
    ⟨i 0, i 1, i 2, i 3, ValueIdx.eq_ix4 i⟩
  rw [val_main_v21_apply, val_main_v20_apply]
  show g _ = g (ix3 p q k)
  refine congrArg g (funext fun a => Fin.ext ?_)
  match a with
  | ⟨0, _⟩ => rfl
  | ⟨1, _⟩ => rfl
  | ⟨2, _⟩ => rfl

/-- The lengthscale stage at an index is ε + softplus of the parameter there. -/
private theorem ref_ls (lp : FVec Ideal S2 .f32) (i : S2.Idx) : val_main_v2 (F := Ideal) lp i = ls (lp i) := by
  unfold ls softplus
  simp only [val_main_v2_apply, val_main_v1_apply, val_main_cst_apply, val_main_v0_apply, val_main_call0_v4_apply,
    val_main_call0_v3_apply, val_main_call0_v2_apply, val_main_call0_cst_apply, val_main_call0_v6_apply,
    val_main_call0_v5_apply, val_main_call0_v11_apply, val_main_call0_v1_apply, val_main_call0_v0_apply,
    val_main_call0_v10_apply, val_main_call0_v9_apply, val_main_call0_v8_apply, val_main_call0_v7_apply,
    Ideal.addf_def, Ideal.subf_def, Ideal.ofBits_def, Ideal.hostUnary_exp_def, Ideal.hostUnary_log1p_def,
    Ideal.hostNegf_def, Ideal.hostAbsf_def, Ideal.negf_def, Ideal.absf_def, Ideal.maximumf_def, Ideal.cmpf_def]

/-- Flat row r and coordinate k of the flattened lattice is lattice point (r / 128, r % 128), coordinate k:
    (2r + k) / 256 = r / 128, (2r + k) / 2 % 128 = r % 128, (2r + k) % 2 = k. -/
private theorem idx_g (b : Fin 4) (r : Fin 16384) (n : Fin 2048) (k : Fin 2) :
    idx_main_v3 (idx_main_v4 (idx_main_v6 (idx_main_v14 (ix3 b r n) k))) = ix3 (rowP r) (rowQ r) k := by
  refine funext fun a => Fin.ext ?_
  have hr := r.isLt
  have hk := k.isLt
  match a with
  | ⟨0, _⟩ => show (r.val * 2 + k.val) / 256 = r.val / 128; omega
  | ⟨1, _⟩ => show (r.val * 2 + k.val) / 2 % 128 = r.val % 128; omega
  | ⟨2, _⟩ => show (r.val * 2 + k.val) % 2 = k.val; omega

/-- The cloud is read at (b, n, k) whatever the row. -/
private theorem idx_x (b : Fin 4) (r : Fin 16384) (n : Fin 2048) (k : Fin 2) :
    idx_main_v5 (idx_main_v7 (idx_main_v14 (ix3 b r n) k)) = ix3 b n k := by
  refine funext fun a => Fin.ext ?_
  match a with
  | ⟨0, _⟩ => rfl
  | ⟨1, _⟩ => rfl
  | ⟨2, _⟩ => rfl

/-- The squared lengthscale is read at k alone. -/
private theorem idx_l (b : Fin 4) (r : Fin 16384) (n : Fin 2048) (k : Fin 2) :
    idx_main_v11 (idx_main_v12 (idx_main_v14 (ix3 b r n) k)) = ix1 k := by
  refine funext fun a => Fin.ext ?_
  match a with
  | ⟨0, _⟩ => rfl

/-- The weight stage at batch b, flat row r and cloud point n is the quotient form of the Gaussian weight. -/
private theorem ref_weight (x : FVec Ideal S4x2048x2 .f32) (g : FVec Ideal S128x128x2 .f32) (lp : FVec Ideal S2 .f32)
    (b : Fin 4) (r : Fin 16384) (n : Fin 2048) :
    val_main_v17 (F := Ideal) x g lp (ix3 b r n)
      = wDiv (g (ix3 (rowP r) (rowQ r) (0 : Fin 2))) (g (ix3 (rowP r) (rowQ r) (1 : Fin 2)))
          (x (ix3 b n (0 : Fin 2))) (x (ix3 b n (1 : Fin 2))) (lsq (lp (ix1 (0 : Fin 2)))) (lsq (lp (ix1 (1 : Fin 2)))) := by
  unfold wDiv lsq
  rw [val_main_v17_apply, val_main_v16_apply, val_main_v15_apply, val_main_cst_1_apply, val_main_v14_apply,
    val_main_cst_0_apply, Fin.sum_univ_two]
  simp only [val_main_v13_apply, val_main_v9_apply, val_main_v8_apply, val_main_v6_apply, val_main_v4_apply,
    val_main_v3_apply, val_main_v7_apply, val_main_v5_apply, val_main_v12_apply, val_main_v11_apply,
    val_main_v10_apply, ref_ls, idx_g, idx_x, idx_l, Ideal.mulf_def, Ideal.subf_def, Ideal.hostDivf_def,
    Ideal.hostUnary_exp_def, Ideal.ofBits_def]

/-- Lattice point (p, q) is flat row 128 p + q, below 128 · 128. -/
private theorem row_lt (p q : Fin 128) : p.val * 128 + q.val < 16384 := by
  have hp := p.isLt
  have hq := q.isLt
  omega

private theorem row_p (p q : Fin 128) (h : p.val * 128 + q.val < 16384) :
    rowP ⟨p.val * 128 + q.val, h⟩ = p := by
  refine Fin.ext ?_
  have hq := q.isLt
  show (p.val * 128 + q.val) / 128 = p.val
  omega

private theorem row_q (p q : Fin 128) (h : p.val * 128 + q.val < 16384) :
    rowQ ⟨p.val * 128 + q.val, h⟩ = q := by
  refine Fin.ext ?_
  have hq := q.isLt
  show (p.val * 128 + q.val) % 128 = q.val
  omega

/-- Output element (b, p, q, d) reads weight (b, 128 p + q, n): with m = ((128 b + p) 128 + q) 128 + d,
    m / 128³ = b and m / 128 % 128² = 128 p + q. -/
private theorem idx_l18 (b : Fin 4) (p q d : Fin 128) (n : Fin 2048) :
    lidx_main_v18 (idx_main_v19 (ix4 b p q d)) n = ix3 b (⟨p.val * 128 + q.val, row_lt p q⟩ : Fin 16384) n := by
  refine funext fun a => Fin.ext ?_
  have hb := b.isLt
  have hp := p.isLt
  have hq := q.isLt
  have hd := d.isLt
  match a with
  | ⟨0, _⟩ => show (((b.val * 128 + p.val) * 128 + q.val) * 128 + d.val) / 2097152 = b.val; omega
  | ⟨1, _⟩ => show (((b.val * 128 + p.val) * 128 + q.val) * 128 + d.val) / 128 % 16384 = p.val * 128 + q.val; omega
  | ⟨2, _⟩ => rfl

/-- Output element (b, p, q, d) reads value (b, n, d): m / 128³ = b and m % 128 = d. -/
private theorem idx_r18 (b : Fin 4) (p q d : Fin 128) (n : Fin 2048) :
    ridx_main_v18 (idx_main_v19 (ix4 b p q d)) n = ix3 b n d := by
  refine funext fun a => Fin.ext ?_
  have hb := b.isLt
  have hp := p.isLt
  have hq := q.isLt
  have hd := d.isLt
  match a with
  | ⟨0, _⟩ => show (((b.val * 128 + p.val) * 128 + q.val) * 128 + d.val) / 2097152 = b.val; omega
  | ⟨1, _⟩ => rfl
  | ⟨2, _⟩ => show (((b.val * 128 + p.val) * 128 + q.val) * 128 + d.val) % 128 = d.val; omega

/-- The reference's second result is the weighted sum of the specification, for finite cloud, lattice and parameter. -/
theorem ref_out (x : FVec Ideal S4x2048x2 .f32) (z : FVec Ideal S4x2048x128 .f32) (g : FVec Ideal S128x128x2 .f32)
    (lp : FVec Ideal S2 .f32) (hx : ∀ i, ∃ r : ℝ, x i = (r : EReal)) (hg : ∀ i, ∃ r : ℝ, g i = (r : EReal))
    (hl : ∀ i, ∃ r : ℝ, lp i = (r : EReal)) :
    val_main_v19 (F := Ideal) x z g lp = out x z g lp := by
  funext i
  obtain ⟨b, p, q, d, rfl⟩ : ∃ (b : Fin 4) (p q d : Fin 128), i = ix4 b p q d :=
    ⟨i 0, i 1, i 2, i 3, ValueIdx.eq_ix4 i⟩
  rw [val_main_v19_apply, val_main_v18_apply]
  show _ = ∑ n : Fin 2048, wgt x g lp b p q n * z (ix3 b n d)
  refine Finset.sum_congr rfl fun n _ => ?_
  rw [idx_l18, idx_r18, ref_weight, row_p, row_q]
  obtain ⟨g0, hg0⟩ := hg (ix3 p q (0 : Fin 2))
  obtain ⟨g1, hg1⟩ := hg (ix3 p q (1 : Fin 2))
  obtain ⟨x0, hx0⟩ := hx (ix3 b n (0 : Fin 2))
  obtain ⟨x1, hx1⟩ := hx (ix3 b n (1 : Fin 2))
  obtain ⟨l0, hl0⟩ := hl (ix1 (0 : Fin 2))
  obtain ⟨l1, hl1⟩ := hl (ix1 (1 : Fin 2))
  unfold wgt
  rw [hg0, hg1, hx0, hx1, hl0, hl1, wDiv_eq_wMul]

end Cert.SetConv

end
-- ==== Proof.HostPrefix.lean ====
/-
  What each window's array holds when the kernel region is entered, read at an index: the two coefficients
  -½ / l², the two coordinate columns of the flattened lattice, the two coordinate rows of the cloud, and the
  values (a change of float format is the identity on the extended reals).
-/
import proofs.«179867_j86251533238887_1_alg».proof.Proof.Spec
import proofs.«179867_j86251533238887_1_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal.Laws

set_option maxRecDepth 16384

noncomputable section

namespace Cert.SetConv

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ)

/-- The four argument arrays on core `c`: the cloud, its values, the lattice and the lengthscale parameter. -/
abbrev aX (c : Dev nD) : FVec Ideal S4x2048x2 .f32 := m ((c : Thread nD τ).loc main_arg0)
abbrev aZ (c : Dev nD) : FVec Ideal S4x2048x128 .f32 := m ((c : Thread nD τ).loc main_arg1)
abbrev aG (c : Dev nD) : FVec Ideal S128x128x2 .f32 := m ((c : Thread nD τ).loc main_arg2)
abbrev aL (c : Dev nD) : FVec Ideal S2 .f32 := m ((c : Thread nD τ).loc main_arg3)

/-- The seven arrays the region's input windows stage, as the region finds them. -/
abbrev w0 (c : Dev nD) : FVec Ideal S1x1 .f32 := V m c main_v7
abbrev w1 (c : Dev nD) : FVec Ideal S1x1 .f32 := V m c main_v9
abbrev w2 (c : Dev nD) : FVec Ideal S16384x1 .f32 := V m c main_v11
abbrev w3 (c : Dev nD) : FVec Ideal S16384x1 .f32 := V m c main_v12
abbrev w4 (c : Dev nD) : FVec Ideal S4x1x2048 .f32 := V m c main_v14
abbrev w5 (c : Dev nD) : FVec Ideal S4x1x2048 .f32 := V m c main_v16
abbrev w6 (c : Dev nD) : FVec Ideal S4x2048x128 .bf16 := V m c main_v17

/-- The coefficient of coordinate 0: -½ over the squared lengthscale of parameter entry 0. -/
theorem w0_apply (c : Dev nD) (j : S1x1.Idx) : w0 m c j = coef (aL m c (ix1 (0 : Fin 2))) := by
  dsimp only [w0, V, V0]
  simp only [hostOps0, hostOps0_1, List.flatten_cons, List.flatten_nil, List.append_nil, List.cons_append, List.nil_append]
  after_results_simp
  obtain ⟨u, v, rfl⟩ : ∃ (u v : Fin 1), j = ix2 u v := ⟨j 0, j 1, eq_ix2 j⟩
  refine (shapeCast_a_1a_apply _ _ u v).trans ?_
  refine (extractStridedSlice_apply _ _ _ (ix1 v) (ix1 (0 : Fin 2)) (fun ax => ?_)).trans ?_
  · match ax with
    | ⟨0, _⟩ => show 0 = 0 + v.val; omega
  · rfl
/-- The coefficient of coordinate 1. -/
theorem w1_apply (c : Dev nD) (j : S1x1.Idx) : w1 m c j = coef (aL m c (ix1 (1 : Fin 2))) := by
  dsimp only [w1, V, V0]
  simp only [hostOps0, hostOps0_1, List.flatten_cons, List.flatten_nil, List.append_nil, List.cons_append, List.nil_append]
  after_results_simp
  obtain ⟨u, v, rfl⟩ : ∃ (u v : Fin 1), j = ix2 u v := ⟨j 0, j 1, eq_ix2 j⟩
  refine (shapeCast_a_1a_apply _ _ u v).trans ?_
  refine (extractStridedSlice_apply _ _ _ (ix1 v) (ix1 (1 : Fin 2)) (fun ax => ?_)).trans ?_
  · match ax with
    | ⟨0, _⟩ => show 1 = 1 + v.val; omega
  · rfl
/-- Row `r` of the first coordinate column is coordinate 0 of lattice point (r / 128, r % 128). -/
theorem w2_apply (c : Dev nD) (r : Fin 16384) : w2 m c (ix2 r (0 : Fin 1)) = aG m c (ix3 (rowP r) (rowQ r) (0 : Fin 2)) := by
  dsimp only [w2, V, V0]
  simp only [hostOps0, hostOps0_1, List.flatten_cons, List.flatten_nil, List.append_nil, List.cons_append, List.nil_append]
  after_results
  refine (slice2_axis1_apply 0 _ _ r (0 : Fin 1) (0 : Fin 2) rfl).trans ?_
  show shapeCast S16384x2 (m (c, Proc.tc.devRef main_arg2)) shapeCasts_S128x128x2_S16384x2 (ix2 r (0 : Fin 2)) = _
  refine (shapeCast_apply _ _ _ (ix3 (rowP r) (rowQ r) (0 : Fin 2)) ?_).trans rfl
  rw [Shape.rowMajor_val_three, Shape.rowMajor_val_two]
  have hr := r.isLt
  show ((r.val / 128) * 128 + r.val % 128) * 2 + 0 = r.val * 2 + 0
  omega
/-- Row `r` of the second coordinate column is coordinate 1 of that lattice point. -/
theorem w3_apply (c : Dev nD) (r : Fin 16384) : w3 m c (ix2 r (0 : Fin 1)) = aG m c (ix3 (rowP r) (rowQ r) (1 : Fin 2)) := by
  dsimp only [w3, V, V0]
  simp only [hostOps0, hostOps0_1, List.flatten_cons, List.flatten_nil, List.append_nil, List.cons_append, List.nil_append]
  after_results
  refine (slice2_axis1_apply 1 _ _ r (0 : Fin 1) (1 : Fin 2) rfl).trans ?_
  show shapeCast S16384x2 (m (c, Proc.tc.devRef main_arg2)) shapeCasts_S128x128x2_S16384x2 (ix2 r (1 : Fin 2)) = _
  refine (shapeCast_apply _ _ _ (ix3 (rowP r) (rowQ r) (1 : Fin 2)) ?_).trans rfl
  rw [Shape.rowMajor_val_three, Shape.rowMajor_val_two]
  have hr := r.isLt
  show ((r.val / 128) * 128 + r.val % 128) * 2 + 1 = r.val * 2 + 1
  omega
/-- The cloud's coordinate 0 laid along a row: entry (b, 0, n) is x[b, n, 0]. -/
theorem w4_apply (c : Dev nD) (b : Fin 4) (n : Fin 2048) : w4 m c (ix3 b (0 : Fin 1) n) = aX m c (ix3 b n (0 : Fin 2)) := by
  dsimp only [w4, V, V0]
  simp only [hostOps0, hostOps0_1, List.flatten_cons, List.flatten_nil, List.append_nil, List.cons_append, List.nil_append]
  after_results
  refine (transpose_ix3_021_apply _ _ b (0 : Fin 1) n).trans ?_
  refine (extractStridedSlice_apply _ _ _ (ix3 b n (0 : Fin 1)) (ix3 b n (0 : Fin 2)) (fun ax => ?_)).trans rfl
  match ax with
  | ⟨0, _⟩ => exact (Nat.zero_add _).symm
  | ⟨1, _⟩ => exact (Nat.zero_add _).symm
  | ⟨2, _⟩ => rfl
/-- The cloud's coordinate 1 laid along a row. -/
theorem w5_apply (c : Dev nD) (b : Fin 4) (n : Fin 2048) : w5 m c (ix3 b (0 : Fin 1) n) = aX m c (ix3 b n (1 : Fin 2)) := by
  dsimp only [w5, V, V0]
  simp only [hostOps0, hostOps0_1, List.flatten_cons, List.flatten_nil, List.append_nil, List.cons_append, List.nil_append]
  after_results
  refine (transpose_ix3_021_apply _ _ b (0 : Fin 1) n).trans ?_
  refine (extractStridedSlice_apply _ _ _ (ix3 b n (0 : Fin 1)) (ix3 b n (1 : Fin 2)) (fun ax => ?_)).trans rfl
  match ax with
  | ⟨0, _⟩ => exact (Nat.zero_add _).symm
  | ⟨1, _⟩ => exact (Nat.zero_add _).symm
  | ⟨2, _⟩ => rfl
/-- The values, unchanged by the change of float format. -/
theorem w6_apply (c : Dev nD) (j : S4x2048x128.Idx) : w6 m c j = aZ m c j := by
  dsimp only [w6, V, V0]
  simp only [hostOps0, hostOps0_1, List.flatten_cons, List.flatten_nil, List.append_nil, List.cons_append, List.nil_append]
  after_results
  rfl

end Cert.SetConv

end
-- ==== Proof.Payload.lean ====
/-
  What one grid point's body stores, read at an index: entry (p, q) of the output block is the sum over the
  2048 cloud points of the Gaussian weight of lattice row p against cloud point n times the value z[n, q].
  The weight is a pointwise expression of a column of lattice coordinates, a row of cloud coordinates and a
  scalar coefficient per coordinate; the sum is the matrix product into a zero accumulator.
-/
import proofs.«179867_j86251533238887_1_alg».proof.Proof.Spec
import proofs.«179867_j86251533238887_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.SetConv

open Idealize.ShloMosaic Idealize.ShloMosaic.ValueIdx Cert.KernelIdeal Cert.KernelIdeal.Gen

section Layout
variable {α : Type}

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry [1, 1] broadcast to [a, b] reads that entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-- The left operand of the product is read at (row of the result, contracted index). -/
theorem lhs_axis0 (i : S512x128.Idx) (k : dot_S512x2048_S2048x128_S512x128_1_0_0_1_n_n.contr.Idx) : (dot_S512x2048_S2048x128_S512x128_1_0_0_1_n_n.lhsIdx i k 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhs_axis1 (i : S512x128.Idx) (k : dot_S512x2048_S2048x128_S512x128_1_0_0_1_n_n.contr.Idx) : (dot_S512x2048_S2048x128_S512x128_1_0_0_1_n_n.lhsIdx i k 1).val = (k ⟨0, by decide⟩).val :=
  dot_S512x2048_S2048x128_S512x128_1_0_0_1_n_n.lhsIdx_val_of_single rfl i k
/-- The right operand is read at (contracted index, column of the result). -/
theorem rhs_axis0 (i : S512x128.Idx) (k : dot_S512x2048_S2048x128_S512x128_1_0_0_1_n_n.contr.Idx) : (dot_S512x2048_S2048x128_S512x128_1_0_0_1_n_n.rhsIdx i k 0).val = (k ⟨0, by decide⟩).val :=
  dot_S512x2048_S2048x128_S512x128_1_0_0_1_n_n.rhsIdx_val_of_single rfl i k
theorem rhs_axis1 (i : S512x128.Idx) (k : dot_S512x2048_S2048x128_S512x128_1_0_0_1_n_n.contr.Idx) : (dot_S512x2048_S2048x128_S512x128_1_0_0_1_n_n.rhsIdx i k 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The product into a zero accumulator at (p, q): the sum over n of left (p, n) times right (n, q). -/
theorem matmul_zero_apply (l : FVec Ideal S512x2048 .bf16) (r : FVec Ideal S2048x128 .bf16) (p : Fin 512) (q : Fin 128) :
    matmul dot_S512x2048_S2048x128_S512x128_1_0_0_1_n_n none l r (constant (F := Ideal) S512x128 .f32 0x00000000#32) (ix2 p q)
      = ∑ n : Fin 2048, l (ix2 p n) * r (ix2 n q) := by
  refine (Ideal.matmul_constant_zero_apply dot_S512x2048_S2048x128_S512x128_1_0_0_1_n_n none l r (ix2 p q)).trans ?_
  rw [← Equiv.sum_comp (contrEquiv1 dot_S512x2048_S2048x128_S512x128_1_0_0_1_n_n 2048 rfl rfl).symm]
  refine Finset.sum_congr rfl fun n _ => ?_
  have hk := contrEquiv1_symm_val dot_S512x2048_S2048x128_S512x128_1_0_0_1_n_n 2048 rfl rfl n
  have el : dot_S512x2048_S2048x128_S512x128_1_0_0_1_n_n.lhsIdx (ix2 p q) ((contrEquiv1 dot_S512x2048_S2048x128_S512x128_1_0_0_1_n_n 2048 rfl rfl).symm n) = ix2 p n := funext fun a => Fin.ext (by
    match a with
    | ⟨0, _⟩ => exact lhs_axis0 _ _
    | ⟨1, _⟩ => exact (lhs_axis1 _ _).trans hk)
  have er : dot_S512x2048_S2048x128_S512x128_1_0_0_1_n_n.rhsIdx (ix2 p q) ((contrEquiv1 dot_S512x2048_S2048x128_S512x128_1_0_0_1_n_n 2048 rfl rfl).symm n) = ix2 n q := funext fun a => Fin.ext (by
    match a with
    | ⟨0, _⟩ => exact (rhs_axis0 _ _).trans hk
    | ⟨1, _⟩ => exact rhs_axis1 _ _)
  rw [el, er]

/-- Entry (0, p, q) of the stored block, from the staged blocks: coefficients x0, x1 (one entry each), lattice
    coordinate columns x2, x3, cloud coordinate rows x4, x5 and the values x6. -/
theorem pay_apply (x0 x1 : FVec Ideal S1x1 .f32) (x2 x3 : FVec Ideal S512x1 .f32) (x4 x5 : FVec Ideal S1x1x2048 .f32)
    (x6 : FVec Ideal S1x2048x128 .bf16) (p : Fin 512) (q : Fin 128) :
    k0_pay1 (F := Ideal) x0 x1 x2 x3 x4 x5 x6 (ix3 (0 : Fin 1) p q)
      = ∑ n : Fin 2048, wMul (x2 (ix2 p (0 : Fin 1))) (x3 (ix2 p (0 : Fin 1))) (x4 (ix3 (0 : Fin 1) (0 : Fin 1) n)) (x5 (ix3 (0 : Fin 1) (0 : Fin 1) n))
          (x0 (ix2 (0 : Fin 1) (0 : Fin 1))) (x1 (ix2 (0 : Fin 1) (0 : Fin 1))) * x6 (ix3 (0 : Fin 1) n q) := by
  unfold k0_pay1
  refine (shapeCast_ab_1ab_apply _ _ (0 : Fin 1) p q).trans ?_
  refine (matmul_zero_apply _ _ p q).trans ?_
  refine Finset.sum_congr rfl fun n _ => ?_
  have e6 : shapeCast S2048x128 x6 shapeCasts_S1x2048x128_S2048x128 (ix2 n q) = x6 (ix3 (0 : Fin 1) n q) :=
    shapeCast_1ab_ab_apply x6 _ n q
  have c2 : broadcastTo S512x2048 (shapeCast S512x1 x2 shapeCasts_S512x1_S512x1) broadcasts_S512x1_S512x2048 (ix2 p n)
      = x2 (ix2 p (0 : Fin 1)) := by
    rw [shapeCast_self]; exact broadcastTo_a1_ab_apply x2 _ p n
  have c3 : broadcastTo S512x2048 (shapeCast S512x1 x3 shapeCasts_S512x1_S512x1) broadcasts_S512x1_S512x2048 (ix2 p n)
      = x3 (ix2 p (0 : Fin 1)) := by
    rw [shapeCast_self]; exact broadcastTo_a1_ab_apply x3 _ p n
  have r4 : broadcastTo S512x2048 (shapeCast S1x2048 x4 shapeCasts_S1x1x2048_S1x2048) broadcasts_S1x2048_S512x2048 (ix2 p n)
      = x4 (ix3 (0 : Fin 1) (0 : Fin 1) n) :=
    (broadcastTo_1b_ab_apply _ _ p n).trans (shapeCast_1ab_ab_apply x4 _ (0 : Fin 1) n)
  have r5 : broadcastTo S512x2048 (shapeCast S1x2048 x5 shapeCasts_S1x1x2048_S1x2048) broadcasts_S1x2048_S512x2048 (ix2 p n)
      = x5 (ix3 (0 : Fin 1) (0 : Fin 1) n) :=
    (broadcastTo_1b_ab_apply _ _ p n).trans (shapeCast_1ab_ab_apply x5 _ (0 : Fin 1) n)
  have s0 : broadcastTo S512x2048 (shapeCast S1x1 x0 shapeCasts_S1x1_S1x1) broadcasts_S1x1_S512x2048 (ix2 p n)
      = x0 (ix2 (0 : Fin 1) (0 : Fin 1)) := by
    rw [shapeCast_self]; exact broadcastTo_11_ab_apply x0 _ p n
  have s1 : broadcastTo S512x2048 (shapeCast S1x1 x1 shapeCasts_S1x1_S1x1) broadcasts_S1x1_S512x2048 (ix2 p n)
      = x1 (ix2 (0 : Fin 1) (0 : Fin 1)) := by
    rw [shapeCast_self]; exact broadcastTo_11_ab_apply x1 _ p n
  -- the pointwise operations read at an index are the scalar operations of the entries
  have key : ∀ (A B C A' B' C' : FVec Ideal S512x2048 .f32) (j : S512x2048.Idx),
      truncf .bf16 (exp (addf (mulf (mulf (subf A B) (subf A B)) C) (mulf (mulf (subf A' B') (subf A' B')) C'))) bitsLt_bf16_f32 j
        = Ideal.exp ((A j - B j) * (A j - B j) * C j + (A' j - B' j) * (A' j - B' j) * C' j) :=
    fun _ _ _ _ _ _ _ => rfl
  exact congrArg₂ (· * ·) ((key _ _ _ _ _ _ (ix2 p n)).trans (by rw [c2, c3, r4, r5, s0, s1]; rfl)) e6

end Cert.SetConv

end
-- ==== Proof.KernelValue.lean ====
/-
  From the blocks to the array. Grid point (b, i) of the 4 × 32 grid stages lattice rows 512·i … 512·i + 511,
  the cloud and the values of batch b, and writes back rows 512·i … of batch b of the flat output. What it writes
  is that block of the flat weighted sums, and the 128 blocks tile the output array.
-/
import proofs.«179867_j86251533238887_1_alg».proof.Proof.Spec
import proofs.«179867_j86251533238887_1_alg».proof.Proof.Payload
import proofs.«179867_j86251533238887_1_alg».proof.Proof.HostPrefix
import proofs.«179867_j86251533238887_1_alg».proof.Proof.Gen.KernelIdeal.Frame
import Idealize.ShloMosaic.Lib.Pipeline.Value
import Idealize.ShloMosaic.Lib.ValueIdx

set_option maxRecDepth 16384

noncomputable section

namespace Cert.SetConv

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 128 grid points: the coefficient windows stay at block (0, 0); the
    lattice columns move with the output's row block; the cloud rows and the values move with the output's batch
    block; the output's block indices stay in their ranges. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_7.index t (1 : Fin 3) ∧ win0_2.index t (1 : Fin 2) = 0
    ∧ win0_3.index t (0 : Fin 2) = win0_7.index t (1 : Fin 3) ∧ win0_3.index t (1 : Fin 2) = 0
    ∧ win0_4.index t (0 : Fin 3) = win0_7.index t (0 : Fin 3) ∧ win0_4.index t (1 : Fin 3) = 0 ∧ win0_4.index t (2 : Fin 3) = 0
    ∧ win0_5.index t (0 : Fin 3) = win0_7.index t (0 : Fin 3) ∧ win0_5.index t (1 : Fin 3) = 0 ∧ win0_5.index t (2 : Fin 3) = 0
    ∧ win0_6.index t (0 : Fin 3) = win0_7.index t (0 : Fin 3) ∧ win0_6.index t (1 : Fin 3) = 0 ∧ win0_6.index t (2 : Fin 3) = 0
    ∧ win0_7.index t (0 : Fin 3) ≤ 3 ∧ win0_7.index t (1 : Fin 3) ≤ 31 ∧ win0_7.index t (2 : Fin 3) = 0 :=
  (by decide +kernel : ∀ t : Fin grid0.N, _)

/-- Every (batch, row block) pair is some grid point's output block. -/
theorem idx_onto : ∀ (q0 : Fin 4) (q1 : Fin 32), ∃ t : Fin cfg0.N, win0_7.index t = ![q0.val, q1.val, 0] :=
  (by decide +kernel : ∀ (q0 : Fin 4) (q1 : Fin 32), ∃ t : Fin grid0.N, win0_7.index t = ![q0.val, q1.val, 0])

/-- The staged blocks at point `t`, each at its literal type. -/
abbrev bk0 (c : Dev nD) (t : Fin cfg0.N) : FVec Ideal S1x1 .f32 := iblk m c 0 t
abbrev bk1 (c : Dev nD) (t : Fin cfg0.N) : FVec Ideal S1x1 .f32 := iblk m c 1 t
abbrev bk2 (c : Dev nD) (t : Fin cfg0.N) : FVec Ideal S512x1 .f32 := iblk m c 2 t
abbrev bk3 (c : Dev nD) (t : Fin cfg0.N) : FVec Ideal S512x1 .f32 := iblk m c 3 t
abbrev bk4 (c : Dev nD) (t : Fin cfg0.N) : FVec Ideal S1x1x2048 .f32 := iblk m c 4 t
abbrev bk5 (c : Dev nD) (t : Fin cfg0.N) : FVec Ideal S1x1x2048 .f32 := iblk m c 5 t
abbrev bk6 (c : Dev nD) (t : Fin cfg0.N) : FVec Ideal S1x2048x128 .bf16 := iblk m c 6 t

/-- The output block's batch index and first row at point `t`. -/
abbrev batchOf (t : Fin cfg0.N) : Fin 4 := ⟨win0_7.index t (0 : Fin 3), by have := (idx_facts t).2.2.2.2.2.2.2.2.2.2.2.2.2.2.2.2.2.1; omega⟩
abbrev rowOf (t : Fin cfg0.N) (p : Fin 512) : Fin 16384 :=
  ⟨win0_7.index t (1 : Fin 3) * 512 + p.val, by have := (idx_facts t).2.2.2.2.2.2.2.2.2.2.2.2.2.2.2.2.2.2.1; have := p.isLt; omega⟩

/-- Each staged block read at an entry is its array at the block's place, by the decided index facts. -/
theorem bk0_apply (c : Dev nD) (t : Fin cfg0.N) : bk0 m c t (ix2 (0 : Fin 1) (0 : Fin 1)) = coef (aL m c (ix1 (0 : Fin 2))) :=
  w0_apply m c _
theorem bk1_apply (c : Dev nD) (t : Fin cfg0.N) : bk1 m c t (ix2 (0 : Fin 1) (0 : Fin 1)) = coef (aL m c (ix1 (1 : Fin 2))) :=
  w1_apply m c _

theorem bk2_apply (c : Dev nD) (t : Fin cfg0.N) (p : Fin 512) :
    bk2 m c t (ix2 p (0 : Fin 1)) = aG m c (ix3 (rowP (rowOf t p)) (rowQ (rowOf t p)) (0 : Fin 2)) := by
  obtain ⟨e00, e01, e10, e11, e20, e21, e30, e31, e40, e41, e42, e50, e51, e52, e60, e61, e62, b0, b1, b2⟩ := idx_facts t
  refine Eq.trans ?_ (w2_apply m c (rowOf t p))
  show w2 m c (((cfg0.win 2).blk t).view.emb (ix2 p (0 : Fin 1))) = _
  refine congrArg (w2 m c) (funext fun a => Fin.ext ?_)
  match a with
  | ⟨0, _⟩ => show win0_2.index t (0 : Fin 2) * 512 + 1 * p.val = win0_7.index t (1 : Fin 3) * 512 + p.val; omega
  | ⟨1, _⟩ => show win0_2.index t (1 : Fin 2) * 1 + 1 * 0 = 0; omega

theorem bk3_apply (c : Dev nD) (t : Fin cfg0.N) (p : Fin 512) :
    bk3 m c t (ix2 p (0 : Fin 1)) = aG m c (ix3 (rowP (rowOf t p)) (rowQ (rowOf t p)) (1 : Fin 2)) := by
  obtain ⟨e00, e01, e10, e11, e20, e21, e30, e31, e40, e41, e42, e50, e51, e52, e60, e61, e62, b0, b1, b2⟩ := idx_facts t
  refine Eq.trans ?_ (w3_apply m c (rowOf t p))
  show w3 m c (((cfg0.win 3).blk t).view.emb (ix2 p (0 : Fin 1))) = _
  refine congrArg (w3 m c) (funext fun a => Fin.ext ?_)
  match a with
  | ⟨0, _⟩ => show win0_3.index t (0 : Fin 2) * 512 + 1 * p.val = win0_7.index t (1 : Fin 3) * 512 + p.val; omega
  | ⟨1, _⟩ => show win0_3.index t (1 : Fin 2) * 1 + 1 * 0 = 0; omega

theorem bk4_apply (c : Dev nD) (t : Fin cfg0.N) (n : Fin 2048) :
    bk4 m c t (ix3 (0 : Fin 1) (0 : Fin 1) n) = aX m c (ix3 (batchOf t) n (0 : Fin 2)) := by
  obtain ⟨e00, e01, e10, e11, e20, e21, e30, e31, e40, e41, e42, e50, e51, e52, e60, e61, e62, b0, b1, b2⟩ := idx_facts t
  refine Eq.trans ?_ (w4_apply m c (batchOf t) n)
  show w4 m c (((cfg0.win 4).blk t).view.emb (ix3 (0 : Fin 1) (0 : Fin 1) n)) = _
  refine congrArg (w4 m c) (funext fun a => Fin.ext ?_)
  match a with
  | ⟨0, _⟩ => show win0_4.index t (0 : Fin 3) * 1 + 1 * 0 = win0_7.index t (0 : Fin 3); omega
  | ⟨1, _⟩ => show win0_4.index t (1 : Fin 3) * 1 + 1 * 0 = 0; omega
  | ⟨2, _⟩ => show win0_4.index t (2 : Fin 3) * 2048 + 1 * n.val = n.val; omega

theorem bk5_apply (c : Dev nD) (t : Fin cfg0.N) (n : Fin 2048) :
    bk5 m c t (ix3 (0 : Fin 1) (0 : Fin 1) n) = aX m c (ix3 (batchOf t) n (1 : Fin 2)) := by
  obtain ⟨e00, e01, e10, e11, e20, e21, e30, e31, e40, e41, e42, e50, e51, e52, e60, e61, e62, b0, b1, b2⟩ := idx_facts t
  refine Eq.trans ?_ (w5_apply m c (batchOf t) n)
  show w5 m c (((cfg0.win 5).blk t).view.emb (ix3 (0 : Fin 1) (0 : Fin 1) n)) = _
  refine congrArg (w5 m c) (funext fun a => Fin.ext ?_)
  match a with
  | ⟨0, _⟩ => show win0_5.index t (0 : Fin 3) * 1 + 1 * 0 = win0_7.index t (0 : Fin 3); omega
  | ⟨1, _⟩ => show win0_5.index t (1 : Fin 3) * 1 + 1 * 0 = 0; omega
  | ⟨2, _⟩ => show win0_5.index t (2 : Fin 3) * 2048 + 1 * n.val = n.val; omega

theorem bk6_apply (c : Dev nD) (t : Fin cfg0.N) (n : Fin 2048) (q : Fin 128) :
    bk6 m c t (ix3 (0 : Fin 1) n q) = aZ m c (ix3 (batchOf t) n q) := by
  obtain ⟨e00, e01, e10, e11, e20, e21, e30, e31, e40, e41, e42, e50, e51, e52, e60, e61, e62, b0, b1, b2⟩ := idx_facts t
  refine Eq.trans ?_ (w6_apply m c (ix3 (batchOf t) n q))
  show w6 m c (((cfg0.win 6).blk t).view.emb (ix3 (0 : Fin 1) n q)) = _
  refine congrArg (w6 m c) (funext fun a => Fin.ext ?_)
  match a with
  | ⟨0, _⟩ => show win0_6.index t (0 : Fin 3) * 1 + 1 * 0 = win0_7.index t (0 : Fin 3); omega
  | ⟨1, _⟩ => show win0_6.index t (1 : Fin 3) * 2048 + 1 * n.val = n.val; omega
  | ⟨2, _⟩ => show win0_6.index t (2 : Fin 3) * 128 + 1 * q.val = q.val; omega

/-- WHAT POINT `t` WRITES BACK is block `t` of the flat weighted sums of the argument arrays. -/
theorem flushed_eq (c : Dev nD) (t : Fin cfg0.N) :
    (dats m 0 c).flushed 7 t = ((cfg0.win 7).blk t).view.read (Elt Ideal) (outFlat (aX m c) (aZ m c) (aG m c) (aL m c)) := by
  show (cfg0.win 7).cut (grid0.coords t) ((dats m 0 c).after 7 t) = _
  rw [after0_7]
  unfold out0_7
  rw [View.canon_unit_zero hz3]
  simp only [View.ld_unit_zero (S := S1x1) hz2, View.ld_unit_zero (S := S512x1) hz2, View.ld_unit_zero (S := S1x1x2048) hz3, View.ld_unit_zero (S := S1x2048x128) hz3]
  obtain ⟨e00, e01, e10, e11, e20, e21, e30, e31, e40, e41, e42, e50, e51, e52, e60, e61, e62, b0, b1, b2⟩ := idx_facts t
  funext j
  revert j
  intro (j : S1x512x128.Idx)
  obtain ⟨u, p, q, rfl⟩ : ∃ (u : Fin 1) (p : Fin 512) (q : Fin 128), j = ix3 u p q := ⟨j 0, j 1, j 2, eq_ix3 j⟩
  obtain rfl : u = 0 := Subsingleton.elim _ _
  show k0_pay1 (F := Ideal) (bk0 m c t) (bk1 m c t) (bk2 m c t) (bk3 m c t) (bk4 m c t) (bk5 m c t) (bk6 m c t) (ix3 (0 : Fin 1) p q)
    = outFlat (aX m c) (aZ m c) (aG m c) (aL m c) (((cfg0.win 7).blk t).view.emb (ix3 (0 : Fin 1) p q))
  have hemb : ((cfg0.win 7).blk t).view.emb (ix3 (0 : Fin 1) p q) = ix3 (batchOf t) (rowOf t p) q := funext fun a => Fin.ext (by
    match a with
    | ⟨0, _⟩ => show win0_7.index t (0 : Fin 3) * 1 + 1 * 0 = win0_7.index t (0 : Fin 3); omega
    | ⟨1, _⟩ => show win0_7.index t (1 : Fin 3) * 512 + 1 * p.val = win0_7.index t (1 : Fin 3) * 512 + p.val; omega
    | ⟨2, _⟩ => show win0_7.index t (2 : Fin 3) * 128 + 1 * q.val = q.val; omega)
  rw [hemb]
  refine (pay_apply (bk0 m c t) (bk1 m c t) (bk2 m c t) (bk3 m c t) (bk4 m c t) (bk5 m c t) (bk6 m c t) p q).trans ?_
  unfold outFlat wgt
  refine Finset.sum_congr rfl fun n _ => ?_
  rw [bk0_apply, bk1_apply, bk2_apply, bk3_apply, bk4_apply, bk5_apply, bk6_apply]

/-- An index of the output array is in point `t`'s block iff each coordinate is in the block's range on its axis. -/
theorem mem_blk (t : Fin cfg0.N) (i : S4x16384x128.Idx) :
    i ∈ ((cfg0.win 7).blk t).view.set ↔ ∀ a : Fin 3, win0_7.index t a * S1x512x128.size a ≤ (i a).val ∧ (i a).val < win0_7.index t a * S1x512x128.size a + S1x512x128.size a := by
  show i ∈ ((View.whole main_v18).slice (win0_7.rect t)).set ↔ _
  rw [View.set_slice_whole, Rect.mem_set_unit]
  exact Iff.rfl

/-- The 128 blocks cover the output array: row r of batch b is in the block of point (b, r / 512). -/
theorem cover (i : S4x16384x128.Idx) : ∃ t : Fin cfg0.N, (cfg0.win 7).flush t = true ∧ i ∈ ((cfg0.win 7).blk t).view.set := by
  have hi0 : (i 0).val < 4 := (i 0).isLt
  have hi1 : (i 1).val < 16384 := (i 1).isLt
  have hi2 : (i 2).val < 128 := (i 2).isLt
  obtain ⟨t, ht⟩ := idx_onto ⟨(i 0).val, hi0⟩ ⟨(i 1).val / 512, by omega⟩
  have q0 : win0_7.index t (0 : Fin 3) = (i 0).val := congrFun ht 0
  have q1 : win0_7.index t (1 : Fin 3) = (i 1).val / 512 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 128 ≤ (i 2).val ∧ (i 2).val < win0_7.index t (2 : Fin 3) * 128 + 128; omega

/-- THE OUTPUT ARRAY after the region: the flat weighted sums of the argument arrays. -/
theorem final (c : Dev nD) : (dats m 0 c).arrAt 7 cfg0.N = outFlat (aX m c) (aZ m c) (aG m c) (aL m c) :=
  (dats m 0 c).arrAt_eq_of_cover 7 (outFlat (aX m c) (aZ m c) (aG m c) (aL m c)) (fun t _ => flushed_eq m c t) cover

end Cert.SetConv

end
-- ==== Proof.Tail.lean ====
/-
  The host operations after the kernel region: the flat weighted sums are cast onto the lattice, and the
  lattice is repeated along the batch axis.
-/
import proofs.«179867_j86251533238887_1_alg».proof.Proof.Spec
import proofs.«179867_j86251533238887_1_alg».proof.Proof.HostPrefix
import proofs.«179867_j86251533238887_1_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal.Laws

set_option maxRecDepth 16384

noncomputable section

namespace Cert.SetConv

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ)

/-- Lattice point (p, q) is flat row 128 p + q, below 128 · 128, and (128 p + q) / 128 = p, (128 p + q) % 128 = q. -/
private theorem row_lt (p q : Fin 128) : p.val * 128 + q.val < 16384 := by
  have hp := p.isLt
  have hq := q.isLt
  omega

private theorem row_p (p q : Fin 128) (h : p.val * 128 + q.val < 16384) :
    rowP ⟨p.val * 128 + q.val, h⟩ = p := by
  refine Fin.ext ?_
  have hq := q.isLt
  show (p.val * 128 + q.val) / 128 = p.val
  omega

private theorem row_q (p q : Fin 128) (h : p.val * 128 + q.val < 16384) :
    rowQ ⟨p.val * 128 + q.val, h⟩ = q := by
  refine Fin.ext ?_
  have hq := q.isLt
  show (p.val * 128 + q.val) % 128 = q.val
  omega

/-- The flat weighted sums cast to the lattice's shape are the weighted sums on the lattice: flat row
    p * 128 + q is lattice point (p, q). -/
theorem cast_outFlat (x : FVec Ideal S4x2048x2 .f32) (z : FVec Ideal S4x2048x128 .f32) (g : FVec Ideal S128x128x2 .f32)
    (lp : FVec Ideal S2 .f32) :
    shapeCast S4x128x128x128 (outFlat x z g lp) shapeCasts_S4x16384x128_S4x128x128x128 = out x z g lp := by
  funext i
  obtain ⟨b, p, q, d, rfl⟩ : ∃ (b : Fin 4) (p q d : Fin 128), i = ix4 b p q d :=
    ⟨i 0, i 1, i 2, i 3, ValueIdx.eq_ix4 i⟩
  rw [shapeCast_apply (outFlat x z g lp) shapeCasts_S4x16384x128_S4x128x128x128 (ix4 b p q d)
    (ix3 b (⟨p.val * 128 + q.val, row_lt p q⟩ : Fin 16384) d) (by
      rw [Shape.rowMajor_val_three, Shape.rowMajor_val_four]
      show (b.val * 16384 + (p.val * 128 + q.val)) * 128 + d.val = ((b.val * 128 + p.val) * 128 + q.val) * 128 + d.val
      omega)]
  show ∑ n : Fin 2048, wgt x g lp b (rowP ⟨p.val * 128 + q.val, row_lt p q⟩) (rowQ ⟨p.val * 128 + q.val, row_lt p q⟩) n
      * z (ix3 b n d) = ∑ n : Fin 2048, wgt x g lp b p q n * z (ix3 b n d)
  rw [row_p, row_q]

/-- The lattice argument is no array of the region, and no operation before the region writes it: after the
    region it is still the lattice as launched. -/
private theorem arr_arg2 (c : Dev nD) :
    Pipeline.withArrays (cfgs 0).spec c (V0 m c) (fun w => (dats m 0 c).arrAt w (cfgs 0).N) (Proc.devRef .tc main_arg2)
      = aG m c :=
  (Pipeline.withArrays_of_ne _ c (V0 m c) _ main_arg2
    (by exact (by decide : ∀ w, Pipeline.arrRef spec0 w ≠ main_arg2))).trans (V_main_arg2 m c)

/-- The region's output array is its eighth window's: after the region it holds what the region left there. -/
private theorem arr_v18 (c : Dev nD) (y : FVec Ideal S4x16384x128 .f32) (h : (dats m 0 c).arrAt 7 cfg0.N = y) :
    Pipeline.withArrays (cfgs 0).spec c (V0 m c) (fun w => (dats m 0 c).arrAt w (cfgs 0).N) (Proc.devRef .tc main_v18)
      = y :=
  (Pipeline.withArrays_arr spec0 launch0.win.arr_inj c _ _ 7).trans h

/-- The lattice broadcast to one batch and then to four is the lattice at (p, q, k) whatever the batch index. -/
private theorem bcast_rep (g : FVec Ideal S128x128x2 .f32) :
    broadcastInDim S4x128x128x2 ![0, 1, 2, 3] bcast_S1x128x128x2_S4x128x128x2_0_1_2_3
      (broadcastInDim S1x128x128x2 ![1, 2, 3] bcast_S128x128x2_S1x128x128x2_1_2_3 g) = rep g := by
  funext i
  obtain ⟨b, p, q, k, rfl⟩ : ∃ (b : Fin 4) (p q : Fin 128) (k : Fin 2), i = ix4 b p q k :=
    ⟨i 0, i 1, i 2, i 3, ValueIdx.eq_ix4 i⟩
  rw [broadcastInDim_apply _ bcast_S1x128x128x2_S4x128x128x2_0_1_2_3 _ (ix4 b p q k) (ix4 (0 : Fin 1) p q k)
      (fun a => match a with
        | ⟨0, _⟩ => by show (0 : Nat) = if (1 : Nat) = 1 then 0 else b.val; rw [if_pos rfl]
        | ⟨1, _⟩ => by show p.val = if (128 : Nat) = 1 then 0 else p.val; rw [if_neg (by decide)]
        | ⟨2, _⟩ => by show q.val = if (128 : Nat) = 1 then 0 else q.val; rw [if_neg (by decide)]
        | ⟨3, _⟩ => by show k.val = if (2 : Nat) = 1 then 0 else k.val; rw [if_neg (by decide)]),
    broadcastInDim_apply _ bcast_S128x128x2_S1x128x128x2_1_2_3 g (ix4 (0 : Fin 1) p q k) (ix3 p q k)
      (fun a => match a with
        | ⟨0, _⟩ => by show p.val = if (128 : Nat) = 1 then 0 else p.val; rw [if_neg (by decide)]
        | ⟨1, _⟩ => by show q.val = if (128 : Nat) = 1 then 0 else q.val; rw [if_neg (by decide)]
        | ⟨2, _⟩ => by show k.val = if (2 : Nat) = 1 then 0 else k.val; rw [if_neg (by decide)])]
  rfl

/-- The first result after the tail: the lattice repeated along the batch axis. -/
theorem tail_rep (c : Dev nD) :
    Pipeline.afterTail₀ cfgs (dats m) 0 (V0 m) [hostOps1] c main_v21 = rep (aG m c) := by
  unfold Pipeline.afterTail₀
  show StableHlo.after hostOps1 _ (Proc.devRef .tc main_v21) = _
  after_results
  rw [arr_arg2 m c]
  exact bcast_rep _

/-- The second result after the tail, given what the region left in its output array. -/
theorem tail_out (c : Dev nD)
    (h : (dats m 0 c).arrAt 7 cfg0.N = outFlat (aX m c) (aZ m c) (aG m c) (aL m c)) :
    Pipeline.afterTail₀ cfgs (dats m) 0 (V0 m) [hostOps1] c main_v19 = out (aX m c) (aZ m c) (aG m c) (aL m c) := by
  unfold Pipeline.afterTail₀
  show StableHlo.after hostOps1 _ (Proc.devRef .tc main_v19) = _
  after_results
  show shapeCast S4x128x128x128
      (Pipeline.withArrays (cfgs 0).spec c (V0 m c) (fun w => (dats m 0 c).arrAt w (cfgs 0).N) (Proc.devRef .tc main_v18))
      shapeCasts_S4x16384x128_S4x128x128x128 = _
  rw [arr_v18 m c _ h]
  exact cast_outFlat _ _ _ _

end Cert.SetConv

end
-- ==== Proof.lean ====
/-
  Continuous convolution of a point cloud onto a lattice with a Gaussian kernel, as a tiled kernel and as a
  plain array program: the two compute the same extended reals.

  Both programs return the lattice repeated along the batch axis and, at every lattice point, the sum over the
  cloud of the values weighted by exp of the scaled squared distance. The kernel folds the scale into a
  coefficient c_k = -½ / l_k² and multiplies; the reference divides by l_k², sums the two coordinates from zero
  and multiplies by -½. On finite inputs the lengthscale l_k = ε + softplus(lp_k) is a positive real, every term
  is a real, and the two exponents are one real number; the contraction with the values is the same sum.

  The kernel side: the staged blocks are the argument arrays at the block's place (HostPrefix, KernelValue),
  a grid point's stored block is the block of the flat weighted sums (Payload, KernelValue), the 128 blocks
  tile the output, and the host tail casts it onto the lattice (Tail). The reference side reads its run one
  operation at a time (RefValue). Finiteness comes from the precondition (Finite); the scalar law is Scalars.
-/
import proofs.«179867_j86251533238887_1_alg».proof.Defs
import proofs.«179867_j86251533238887_1_alg».proof.Proof.Gen.Kernel
import proofs.«179867_j86251533238887_1_alg».proof.Proof.Gen.Kernel.Skeleton
import proofs.«179867_j86251533238887_1_alg».proof.Proof.Gen.Kernel.Launch
import proofs.«179867_j86251533238887_1_alg».proof.Proof.Gen.Kernel.Points
import proofs.«179867_j86251533238887_1_alg».proof.Proof.Gen.Kernel.Frame
import proofs.«179867_j86251533238887_1_alg».proof.Proof.Gen.KernelIdeal
import proofs.«179867_j86251533238887_1_alg».proof.Proof.Gen.KernelIdeal.Skeleton
import proofs.«179867_j86251533238887_1_alg».proof.Proof.Gen.KernelIdeal.Launch
import proofs.«179867_j86251533238887_1_alg».proof.Proof.Gen.KernelIdeal.Points
import proofs.«179867_j86251533238887_1_alg».proof.Proof.Gen.KernelIdeal.Frame
import proofs.«179867_j86251533238887_1_alg».proof.Proof.Gen.ReferenceIdeal
import proofs.«179867_j86251533238887_1_alg».proof.Proof.Gen.Pre_finite_inputs
import proofs.«179867_j86251533238887_1_alg».proof.Proof.Gen.ReferenceIdeal.Run
import proofs.«179867_j86251533238887_1_alg».proof.Proof.Gen.ReferenceIdeal.Read
import proofs.«179867_j86251533238887_1_alg».proof.Proof.Spec
import proofs.«179867_j86251533238887_1_alg».proof.Proof.Scalars
import proofs.«179867_j86251533238887_1_alg».proof.Proof.Finite
import proofs.«179867_j86251533238887_1_alg».proof.Proof.RefValue
import proofs.«179867_j86251533238887_1_alg».proof.Proof.HostPrefix
import proofs.«179867_j86251533238887_1_alg».proof.Proof.KernelValue
import proofs.«179867_j86251533238887_1_alg».proof.Proof.Tail
import Idealize.ShloMosaic.Adequacy
import Idealize.ShloMosaic.Init

noncomputable section

namespace Cert.Proof

open Idealize.ShloMosaic Idealize.ShloMosaic.TcCoe Idealize.SL.Sem Cert.SetConv

/-- The idealized kernel's run with both results named: the repeated lattice and the weighted sums of the
    argument arrays; the arguments end as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v21) = rep (aG m c)
        ∧ r.2.mem ((c.tc : Thread Cert.KernelIdeal.nD Cert.KernelIdeal.τ).loc Cert.KernelIdeal.main_v19) = out (aX m c) (aZ m c) (aG m c) (aL m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨((h c).2 Cert.KernelIdeal.main_v21 (Pipeline.mem_restRefs_of Cert.KernelIdeal.main_v21 (by decide) (by decide))).trans (tail_rep m c),
     ((h c).2 Cert.KernelIdeal.main_v19 (Pipeline.mem_restRefs_of Cert.KernelIdeal.main_v19 (by decide) (by decide))).trans (tail_out m c (final m c)),
     ((h c).2 Cert.KernelIdeal.main_arg0 (Pipeline.mem_restRefs_of Cert.KernelIdeal.main_arg0 (by decide) (by decide))).trans (Cert.KernelIdeal.Gen.W_main_arg0 m (Cert.KernelIdeal.Gen.dats m) c),
     ((h c).2 Cert.KernelIdeal.main_arg1 (Pipeline.mem_restRefs_of Cert.KernelIdeal.main_arg1 (by decide) (by decide))).trans (Cert.KernelIdeal.Gen.W_main_arg1 m (Cert.KernelIdeal.Gen.dats m) c),
     ((h c).2 Cert.KernelIdeal.main_arg2 (Pipeline.mem_restRefs_of Cert.KernelIdeal.main_arg2 (by decide) (by decide))).trans (Cert.KernelIdeal.Gen.W_main_arg2 m (Cert.KernelIdeal.Gen.dats m) c),
     ((h c).2 Cert.KernelIdeal.main_arg3 (Pipeline.mem_restRefs_of Cert.KernelIdeal.main_arg3 (by decide) (by decide))).trans (Cert.KernelIdeal.Gen.W_main_arg3 m (Cert.KernelIdeal.Gen.dats m) c)⟩)
    (Cert.KernelIdeal.Gen.run_main m ρ)

/-- The two kernel programs run and keep their arguments: the generated frames. -/
theorem frame_k : Cert.frame_Kernel := fun m ρ _ => Cert.Kernel.Gen.frame m ρ
theorem frame_ki : Cert.frame_KernelIdeal := fun m ρ _ => Cert.KernelIdeal.Gen.frame m ρ
/-- The reference runs and keeps its arguments: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the finite arguments, both programs end with the repeated lattice and the same
    weighted sums. -/
theorem algebraic : Cert.algebraic_KernelIdeal_ReferenceIdeal := by
  intro m ρ m' ρ' hpre hagree
  refine ⟨fun c => rep (aG m c), fun c => out (aX m c) (aZ m c) (aG m c) (aL m c), kernel_run m ρ, ?_⟩
  refine (θ_run Cert.ReferenceIdeal.defs _ _).mono (fun _ h c => ?_) (Cert.ReferenceIdeal.Value.run (F := Ideal) m' ρ')
  obtain ⟨h21, h19, h0, h1, h2, h3⟩ := h c
  obtain ⟨a0, a1, a2, a3⟩ := hagree c
  obtain ⟨hx, hg, hl⟩ := real_of_pre _ _ _ _ (hpre c)
  refine ⟨?_, ?_, h0, h1, h2, h3⟩
  · exact (h21.trans (Cert.ReferenceIdeal.Read.val_main_v21_eq _)).trans (by rw [a2]; exact ref_rep _)
  · exact (h19.trans (Cert.ReferenceIdeal.Read.val_main_v19_eq _ _ _ _)).trans (by rw [a0, a1, a2, a3]; exact ref_out _ _ _ _ hx hg hl)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
